-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg15 : FVec F S256x128 .f32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : FVec F S1600000x128 .f32) (main_arg3 : FVec F S128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S6400x128 : Shape := ⟨2, ![6400, 128]⟩
abbrev S1x128 : Shape := ⟨2, ![1, 128]⟩
abbrev S1x256 : Shape := ⟨2, ![1, 256]⟩
abbrev S1000x128 : Shape := ⟨2, ![1000, 128]⟩
abbrev S1000x256 : Shape := ⟨2, ![1000, 256]⟩

abbrev nBuf : Space → Nat
  | .hbm => 58
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S128x128, .bf16⟩
  | .hbm, ⟨40, _⟩ => ⟨S128x256, .bf16⟩
  | .hbm, ⟨41, _⟩ => ⟨S256x128, .bf16⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x256, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x256, .bf16⟩
  | .local _ .vmem, ⟨21, _⟩ => ⟨S1x256, .f32⟩
  | .local _ .vmem, ⟨22, _⟩ => ⟨S256x128, .bf16⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg18_0 : Ref sig .tc := ⟨.vmem, 26, rfl⟩
abbrev cc1_stg19_0 : Ref sig .tc := ⟨.vmem, 27, rfl⟩
abbrev cc1_stg20_0 : Ref sig .tc := ⟨.vmem, 28, rfl⟩
abbrev cc1_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem18_0 : DmaSem sig := 26
abbrev cc1_sem19_0 : DmaSem sig := 27
abbrev cc1_sem20_0 : DmaSem sig := 28
abbrev cc1_sem20_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x128 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 2 → Memref sig .tc .vmem S1000x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x256.size a ≤ S128x256.size a
  hwx1_12 : ∀ i : grid1.Coords, EltTy.bits .bf16 = 32 ∨ (Rect.block (s := S128x256) S128x256.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x128.size a ≤ S256x128.size a
  hwx1_14 : ∀ i : grid1.Coords, EltTy.bits .bf16 = 32 ∨ (Rect.block (s := S256x128) S256x128.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x128.size a ≤ S1x128.size a
  hwx1_17 : ∀ i : grid1.Coords, EltTy.bits .f32 = 32 ∨ (Rect.block (s := S1x128) S1x128.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x128.size a ≤ S1x128.size a
  hwx1_18 : ∀ i : grid1.Coords, EltTy.bits .f32 = 32 ∨ (Rect.block (s := S1x128) S1x128.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x128.size a ≤ S1x128.size a
  hwx1_19 : ∀ i : grid1.Coords, EltTy.bits .f32 = 32 ∨ (Rect.block (s := S1x128) S1x128.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S1000x128.size a ≤ S100000x128.size a
  hwx1_20 : ∀ i : grid1.Coords, EltTy.bits .f32 = 32 ∨ (Rect.block (s := S100000x128) S1000x128.size (cc1_transform_20 i) (hinb1_20 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v26) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v16) S128x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v27) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v17) S256x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v28) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v29) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v30) S1x128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v31) S1x128.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v32) S1x128.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v33) S1000x128.size cc1_transform_20 reads1_20 true false 2 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128 : Shape := ⟨2, ![1, 128]⟩
abbrev S100000x256 : Shape := ⟨2, ![100000, 256]⟩
abbrev S1x256 : Shape := ⟨2, ![1, 256]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x256, .f32⟩
  | .hbm, ⟨84, _⟩ => ⟨S1x256, .f32⟩
  | .hbm, ⟨85, _⟩ => ⟨S100000x256, .f32⟩
  | .hbm, ⟨86, _⟩ => ⟨S100000x256, .f32⟩
  | .hbm, ⟨87, _⟩ => ⟨S_, .f32⟩
  | .hbm, ⟨88, _⟩ => ⟨S100000x256, .f32⟩
  | .hbm, ⟨89, _⟩ => ⟨S100000x256, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_3 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  One layer of a graph network on 100000 nodes with 128 features, as plain functions on the extended reals.

  A message on an edge is max (x_src + e, 0). Messages are summed into their destination rows (that sum is
  taken by the same host operation in both programs and is never opened here). Row by row the node update is

    a(l)   = max (N0 (x(l) + s(l)), 0)
    h1(j)  = N1 (x(j) + (Σ_l a(l)·W0(l, j) + c0(j)))
    u(q)   = max (Σ_l h1(l)·W1(l, q) + c1(q), 0)
    out(j) = N2 (h1(j) + (Σ_q u(q)·W2(q, j) + c2(j)))

  where x is the row of node features, s the row of summed messages, and each N is a normalisation with
  stored statistics: N v = (v − mean)·rsqrt (variance + ε)·scale + shift, column by column. Every row of the
  result depends on the same row of x and of s only.
-/
import Idealize.ShloMosaic.PureOps.Ideal
import Idealize.ShloMosaic.Lib.ValueIdx

noncomputable section

namespace Cert.GineLayer

open Idealize.ShloMosaic

/-- Zero, as the word both programs print for it. -/
abbrev zero : EReal := Ideal.ofBits .f32 0x00000000#32
/-- The variance offset ε, as the word both programs print for it. -/
abbrev eps : EReal := Ideal.ofBits .f32 0x3727C5AC#32

/-- The stored statistics of one normalisation: scale, shift, mean, variance, per column. -/
structure Norm where
  g : Fin 128 → EReal
  b : Fin 128 → EReal
  mu : Fin 128 → EReal
  var : Fin 128 → EReal

/-- The normalisation of a value in column `j`. -/
def norm (n : Norm) (v : EReal) (j : Fin 128) : EReal :=
  (v - n.mu j) * Ideal.rsqrt (n.var j + eps) * n.g j + n.b j

/-- The layer's parameters: three normalisations, three weight matrices and their bias rows. -/
structure Params where
  n0 : Norm
  W0 : Fin 128 → Fin 128 → EReal
  c0 : Fin 128 → EReal
  n1 : Norm
  W1 : Fin 128 → Fin 256 → EReal
  c1 : Fin 256 → EReal
  W2 : Fin 256 → Fin 128 → EReal
  c2 : Fin 128 → EReal
  n2 : Norm

variable (P : Params) (xr ar : Fin 128 → EReal)

/-- The rectified normalised sum of a node's features and its summed messages. -/
def act0 (l : Fin 128) : EReal := max (norm P.n0 (xr l + ar l) l) zero

/-- The first residual block's normalised output. -/
def h1 (j : Fin 128) : EReal := norm P.n1 (xr j + ((∑ l : Fin 128, act0 P xr ar l * P.W0 l j) + P.c0 j)) j

/-- The feed-forward block's hidden row. -/
def hid (q : Fin 256) : EReal := max ((∑ l : Fin 128, h1 P xr ar l * P.W1 l q) + P.c1 q) zero

/-- One row of the layer's result. -/
def denseRow (j : Fin 128) : EReal :=
  norm P.n2 (h1 P xr ar j + ((∑ q : Fin 256, hid P xr ar q * P.W2 q j) + P.c2 j)) j

/-- The message on one edge, entry by entry. -/
def msg (xs ea : EReal) : EReal := max (xs + ea) zero

end Cert.GineLayer

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.DenseBlock.lean ====
/-
  What the node-update kernel leaves in its output block, read at (p, j): the layer's row function of row p of the
  block of node features and row p of the block of summed messages, the parameters read off their one-row blocks.
-/
import proofs.«139429_j60138132078771_1_alg».proof.Proof.Gen.KernelIdeal.Frame
import proofs.«139429_j60138132078771_1_alg».proof.Proof.Spec
import proofs.«139429_j60138132078771_1_alg».proof.Proof.LibDenseLayer

noncomputable section

namespace Cert.KernelIdeal.DenseBlock

open Cert.KernelIdeal Cert.KernelIdeal.Gen Idealize.ShloMosaic Idealize.ShloMosaic.TcCoe Idealize.ShloMosaic.ValueIdx Cert.GineLayer

/-- A one-row block of 128 entries as a function of its column. -/
def krow (v : Vec Ideal S1x128 .f32) : Fin 128 → EReal := fun j => v (ix2 (0 : Fin 1) j)

/-- The layer's parameters as the kernel's blocks hold them. -/
def kparams (x2 x3 x4 x5 : Vec Ideal S1x128 .f32) (x6 : Vec Ideal S128x128 .bf16) (x7 x8 x9 x10 x11 : Vec Ideal S1x128 .f32) (x12 : Vec Ideal S128x256 .bf16) (x13 : Vec Ideal S1x256 .f32) (x14 : Vec Ideal S256x128 .bf16) (x15 x16 x17 x18 x19 : Vec Ideal S1x128 .f32) : Params where
  n0 := ⟨krow x2, krow x3, krow x4, krow x5⟩
  W0 := fun l j => x6 (ix2 l j)
  c0 := krow x7
  n1 := ⟨krow x8, krow x9, krow x10, krow x11⟩
  W1 := fun l q => x12 (ix2 l q)
  c1 := fun q => x13 (ix2 (0 : Fin 1) q)
  W2 := fun q j => x14 (ix2 q j)
  c2 := krow x15
  n2 := ⟨krow x16, krow x17, krow x18, krow x19⟩

/-- A normalisation with stored statistics, as the kernel spells it on a block of 1000 rows, read at (p, c): the
    statistics are one-row blocks repeated down the rows. -/
theorem norm_block_apply (v : FVec Ideal S1000x128 .f32) (g b mu var : FVec Ideal S1x128 .f32) (p : Fin 1000) (c : Fin 128) :
    addf (mulf (mulf (subf v (broadcastTo S1000x128 mu broadcasts_S1x128_S1000x128))
        (broadcastTo S1000x128 (rsqrt (addf var (broadcast S1x128 (Scalar.ofBits (F := Ideal) .f32 0x3727C5AC#32)))) broadcasts_S1x128_S1000x128))
        (broadcastTo S1000x128 g broadcasts_S1x128_S1000x128))
        (broadcastTo S1000x128 b broadcasts_S1x128_S1000x128) (ix2 p c)
      = norm ⟨krow g, krow b, krow mu, krow var⟩ (v (ix2 p c)) c := by
  show (v (ix2 p c) - broadcastTo S1000x128 mu broadcasts_S1x128_S1000x128 (ix2 p c))
      * broadcastTo S1000x128 (rsqrt (addf var (broadcast S1x128 (Scalar.ofBits (F := Ideal) .f32 0x3727C5AC#32)))) broadcasts_S1x128_S1000x128 (ix2 p c)
      * broadcastTo S1000x128 g broadcasts_S1x128_S1000x128 (ix2 p c)
      + broadcastTo S1000x128 b broadcasts_S1x128_S1000x128 (ix2 p c) = _
  rw [broadcastTo_1b_ab_apply, broadcastTo_1b_ab_apply, broadcastTo_1b_ab_apply, broadcastTo_1b_ab_apply]
  rfl

/-- The last normalisation, at (p, j). -/
theorem pay1_apply (v71 : FVec Ideal S1000x128 .f32) (g b : FVec Ideal S1x128 .f32) (mu var : Vec Ideal S1x128 .f32)
    (p : Fin 1000) (j : Fin 128) :
    k1_pay1 (F := Ideal) v71 g b mu var (ix2 p j) = norm ⟨krow g, krow b, krow mu, krow var⟩ (v71 (ix2 p j)) j := by
  unfold k1_pay1
  rw [shapeCast_self, shapeCast_self]
  exact norm_block_apply v71 g b mu var p j

/-- A row cast to its own shape is itself. -/
theorem pay3_eq (v : Vec Ideal S1x128 .f32) : k1_pay3 (F := Ideal) v = v := by
  unfold k1_pay3; exact shapeCast_self _ _
theorem pay5_eq (v : Vec Ideal S1x128 .f32) : k1_pay5 (F := Ideal) v = v := by
  unfold k1_pay5; exact shapeCast_self _ _
theorem pay6_eq (v : Vec Ideal S1x128 .f32) : k1_pay6 (F := Ideal) v = v := by
  unfold k1_pay6; exact shapeCast_self _ _

/-- The first residual block before its normalisation, at (p, j). -/
theorem pay2_apply (x0 x1 : Vec Ideal S1000x128 .f32) (g b mu var : Vec Ideal S1x128 .f32) (W : Vec Ideal S128x128 .bf16)
    (c0 : Vec Ideal S1x128 .f32) (p : Fin 1000) (j : Fin 128) :
    k1_pay2 (F := Ideal) x0 x1 g b mu var W c0 (ix2 p j)
      = x0 (ix2 p j) + ((∑ l : Fin 128, max (norm ⟨krow g, krow b, krow mu, krow var⟩ (x0 (ix2 p l) + x1 (ix2 p l)) l) zero * W (ix2 l j))
          + krow c0 j) := by
  unfold k1_pay2
  rw [shapeCast_self, shapeCast_self, shapeCast_self, shapeCast_self, shapeCast_self, shapeCast_self, shapeCast_self]
  refine congrArg (x0 (ix2 p j) + ·) ?_
  refine congrArg₂ (· + ·) ?_ (broadcastTo_1b_ab_apply _ _ p j)
  refine (DenseLayer.matmul_rows_apply (φ₁ := .bf16) (φ₂ := .bf16) dot_S1000x128_S128x128_S1000x128_1_0_0_1_n_n_wf none _ W p j).trans ?_
  refine Finset.sum_congr rfl fun l _ => ?_
  refine congrArg (· * W (ix2 l j)) ?_
  refine congrArg (max · zero) ?_
  exact norm_block_apply (addf x0 x1) g b mu var p l

/-- The feed-forward block before the last normalisation, at (p, j): with h the normalised row of the block that
    comes in, h(j) plus the second product of the rectified first product, each with its bias row. -/
theorem pay4_apply (v33 : FVec Ideal S1000x128 .f32) (g : FVec Ideal S1x128 .f32) (b mu var : Vec Ideal S1x128 .f32)
    (W1 : Vec Ideal S128x256 .bf16) (c1 : Vec Ideal S1x256 .f32) (W2 : Vec Ideal S256x128 .bf16) (c2 : Vec Ideal S1x128 .f32)
    (p : Fin 1000) (j : Fin 128) :
    k1_pay4 (F := Ideal) v33 g b mu var W1 c1 W2 c2 (ix2 p j)
      = norm ⟨krow g, krow b, krow mu, krow var⟩ (v33 (ix2 p j)) j
        + ((∑ q : Fin 256,
              max ((∑ l : Fin 128, norm ⟨krow g, krow b, krow mu, krow var⟩ (v33 (ix2 p l)) l * W1 (ix2 l q))
                  + c1 (ix2 (0 : Fin 1) q)) zero * W2 (ix2 q j))
          + krow c2 j) := by
  unfold k1_pay4
  rw [shapeCast_self, shapeCast_self, shapeCast_self, shapeCast_self, shapeCast_self, shapeCast_self, shapeCast_self]
  refine congrArg₂ (· + ·) (norm_block_apply v33 g b mu var p j) ?_
  refine congrArg₂ (· + ·) ?_ (broadcastTo_1b_ab_apply _ _ p j)
  refine (DenseLayer.matmul_rows_apply (φ₁ := .bf16) (φ₂ := .bf16) dot_S1000x256_S256x128_S1000x128_1_0_0_1_n_n_wf none _ W2 p j).trans ?_
  refine Finset.sum_congr rfl fun q _ => ?_
  refine congrArg (· * W2 (ix2 q j)) ?_
  refine congrArg (max · zero) ?_
  refine congrArg₂ (· + ·) ?_ (broadcastTo_1b_ab_apply _ _ p q)
  refine (DenseLayer.matmul_rows_apply (φ₁ := .bf16) (φ₂ := .bf16) dot_S1000x128_S128x256_S1000x256_1_0_0_1_n_n_wf none _ W1 p q).trans ?_
  refine Finset.sum_congr rfl fun l _ => ?_
  exact congrArg (· * W1 (ix2 l q)) (norm_block_apply v33 g b mu var p l)

/-- The output block after the body, at (p, j). -/
theorem dense_block_apply (x0 x1 : Vec Ideal S1000x128 .f32) (x2 x3 x4 x5 : Vec Ideal S1x128 .f32) (x6 : Vec Ideal S128x128 .bf16) (x7 x8 x9 x10 x11 : Vec Ideal S1x128 .f32) (x12 : Vec Ideal S128x256 .bf16) (x13 : Vec Ideal S1x256 .f32) (x14 : Vec Ideal S256x128 .bf16) (x15 x16 x17 x18 x19 : Vec Ideal S1x128 .f32) (p : Fin 1000) (j : Fin 128) :
    out1_20 (F := Ideal) x0 x1 x2 x3 x4 x5 x6 x7 x8 x9 x10 x11 x12 x13 x14 x15 x16 x17 x18 x19 (ix2 p j)
      = denseRow (kparams x2 x3 x4 x5 x6 x7 x8 x9 x10 x11 x12 x13 x14 x15 x16 x17 x18 x19)
          (fun l => x0 (ix2 p l)) (fun l => x1 (ix2 p l)) j := by
  have hz : (![0, 0] : Fin 2 → Nat) = fun _ => 0 := funext fun a => by fin_cases a <;> rfl
  unfold out1_20
  rw [View.canon_unit_zero hz]
  simp only [View.ld_unit_zero (S := S1000x128) hz, View.ld_unit_zero (S := S1x128) hz,
    View.ld_unit_zero (S := S128x128) hz, View.ld_unit_zero (S := S128x256) hz, View.ld_unit_zero (S := S1x256) hz,
    View.ld_unit_zero (S := S256x128) hz]
  rw [pay3_eq, pay5_eq, pay6_eq, pay1_apply, pay4_apply]
  simp only [pay2_apply]
  rfl

end Cert.KernelIdeal.DenseBlock

end
-- ==== Proof.DenseRegion.lean ====
/-
  The node-update kernel's result array. Its grid walks the 100,000 node rows in 100 blocks of 1000 rows; at point t
  the blocks of the node features, of the summed messages and of the result are rows 1000·t … 1000·t + 999, all 128
  columns, and every parameter's block is its whole array. Row p of the result block is the layer's row function of
  row p of the two input blocks, so after the region row r of the result array is that function of row r of the node
  features and of the summed messages as the region found them.
-/
import proofs.«139429_j60138132078771_1_alg».proof.Proof.Gen.KernelIdeal.Frame
import proofs.«139429_j60138132078771_1_alg».proof.Proof.Spec
import proofs.«139429_j60138132078771_1_alg».proof.Proof.DenseBlock
import Idealize.ShloMosaic.Lib.Pipeline.Value
import Idealize.ShloMosaic.Lib.ValueIdx

set_option maxRecDepth 16384

noncomputable section

namespace Cert.KernelIdeal.DenseRegion

open Cert.KernelIdeal Cert.KernelIdeal.Gen Idealize.ShloMosaic Idealize.ShloMosaic.TcCoe Idealize.SL.Sem Cert.GineLayer
open Idealize.ShloMosaic.ValueIdx Cert.KernelIdeal.DenseBlock
open Idealize.ShloMosaic.Pipeline (Dat)

variable (V : (c : Dev nD) → (b : Ref sig .tc) → Buf (Elt Ideal) ((c : Thread nD τ).loc b))

/-- The layer's parameters as the region finds them in its one-row and matrix arrays. -/
def regionParams (c : Dev nD) : Params :=
  kparams (V c main_v18) (V c main_v19) (V c main_v20) (V c main_v21) (V c main_v15) (V c main_v22)
    (V c main_v23) (V c main_v24) (V c main_v25) (V c main_v26) (V c main_v16) (V c main_v27) (V c main_v17) (V c main_v28)
    (V c main_v29) (V c main_v30) (V c main_v31) (V c main_v32)

/-- The layer applied row by row to the node features and the summed messages as the region finds them. -/
def denseArr (c : Dev nD) : S100000x128.Idx → EReal := fun i =>
  denseRow (regionParams V c) (fun l => V c main_arg0 (ix2 (i 0) l)) (fun l => V c main_v14 (ix2 (i 0) l)) (i 1)

/-- A parameter window's block is its whole array at every point: its block index is (0, 0). -/
local macro "whole_block_thm" n:ident v:ident w:num b:ident wd:ident s0:num s1:num : command =>
  `(theorem $n (c : Dev nD) (t : Fin cfg1.N) : iblk1 $v c $w t = $v c $b := by
      funext y
      have h : ∀ t : Fin cfg1.N, ($wd).index t (0 : Fin 2) = 0 ∧ ($wd).index t (1 : Fin 2) = 0 :=
        (by decide +kernel : ∀ t : Fin grid1.N, _)
      obtain ⟨h0, h1⟩ := h t
      show $v c $b (((cfg1.win $w).blk t).view.emb y) = $v c $b y
      refine congrArg ($v c $b) (funext fun a => Fin.ext ?_)
      match a with
      | ⟨0, _⟩ => show ($wd).index t (0 : Fin 2) * $s0 + 1 * (y 0).val = (y 0).val; omega
      | ⟨1, _⟩ => show ($wd).index t (1 : Fin 2) * $s1 + 1 * (y 1).val = (y 1).val; omega)

whole_block_thm blk2 V 2 main_v18 win1_2 1 128
whole_block_thm blk3 V 3 main_v19 win1_3 1 128
whole_block_thm blk4 V 4 main_v20 win1_4 1 128
whole_block_thm blk5 V 5 main_v21 win1_5 1 128
whole_block_thm blk6 V 6 main_v15 win1_6 128 128
whole_block_thm blk7 V 7 main_v22 win1_7 1 128
whole_block_thm blk8 V 8 main_v23 win1_8 1 128
whole_block_thm blk9 V 9 main_v24 win1_9 1 128
whole_block_thm blk10 V 10 main_v25 win1_10 1 128
whole_block_thm blk11 V 11 main_v26 win1_11 1 128
whole_block_thm blk12 V 12 main_v16 win1_12 128 256
whole_block_thm blk13 V 13 main_v27 win1_13 1 256
whole_block_thm blk14 V 14 main_v17 win1_14 256 128
whole_block_thm blk15 V 15 main_v28 win1_15 1 128
whole_block_thm blk16 V 16 main_v29 win1_16 1 128
whole_block_thm blk17 V 17 main_v30 win1_17 1 128
whole_block_thm blk18 V 18 main_v31 win1_18 1 128
whole_block_thm blk19 V 19 main_v32 win1_19 1 128

/-- The blocks of the node features, of the summed messages and of the result at point t have block index (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_20.index t (0 : Fin 2) = t.val ∧ win1_20.index t (1 : Fin 2) = 0 :=
  (by decide +kernel : ∀ t : Fin grid1.N, _)

/-- The result block after the body at any index of the block: the row function of that index's row. -/
theorem block_at (x0 x1 : Vec Ideal S1000x128 .f32) (x2 x3 x4 x5 : Vec Ideal S1x128 .f32) (x6 : Vec Ideal S128x128 .bf16) (x7 x8 x9 x10 x11 : Vec Ideal S1x128 .f32) (x12 : Vec Ideal S128x256 .bf16) (x13 : Vec Ideal S1x256 .f32) (x14 : Vec Ideal S256x128 .bf16) (x15 x16 x17 x18 x19 : Vec Ideal S1x128 .f32) (y : S1000x128.Idx) :
    out1_20 (F := Ideal) x0 x1 x2 x3 x4 x5 x6 x7 x8 x9 x10 x11 x12 x13 x14 x15 x16 x17 x18 x19 y
      = denseRow (kparams x2 x3 x4 x5 x6 x7 x8 x9 x10 x11 x12 x13 x14 x15 x16 x17 x18 x19)
          (fun l => x0 (ix2 (y 0) l)) (fun l => x1 (ix2 (y 0) l)) (y 1) := by
  exact (congrArg (out1_20 (F := Ideal) x0 x1 x2 x3 x4 x5 x6 x7 x8 x9 x10 x11 x12 x13 x14 x15 x16 x17 x18 x19) (eq_ix2 y)).trans
    (dense_block_apply x0 x1 x2 x3 x4 x5 x6 x7 x8 x9 x10 x11 x12 x13 x14 x15 x16 x17 x18 x19 (y 0) (y 1))

/-- What point t writes back is block t of the layer applied row by row to the two arrays. -/
theorem flushed_eq (c : Dev nD) (t : Fin cfg1.N) :
    (dat1 V c).flushed 20 t = ((cfg1.win 20).blk t).view.read (Elt Ideal) (denseArr V c) := by
  show (cfg1.win 20).cut (grid1.coords t) ((dat1 V c).after 20 t) = _
  rw [after1_20, blk2 V c t, blk3 V c t, blk4 V c t, blk5 V c t, blk6 V c t, blk7 V c t, blk8 V c t, blk9 V c t, blk10 V c t,
    blk11 V c t, blk12 V c t, blk13 V c t, blk14 V c t, blk15 V c t, blk16 V c t, blk17 V c t, blk18 V c t, blk19 V c t]
  obtain ⟨e0, e1, e2, e3, e4, e5⟩ := idx_facts t
  funext j
  show out1_20 (F := Ideal) (iblk1 V c 0 t) (iblk1 V c 1 t) (V c main_v18) (V c main_v19) (V c main_v20) (V c main_v21) (V c main_v15) (V c main_v22)
      (V c main_v23) (V c main_v24) (V c main_v25) (V c main_v26) (V c main_v16) (V c main_v27) (V c main_v17) (V c main_v28)
      (V c main_v29) (V c main_v30) (V c main_v31) (V c main_v32) j
    = denseArr V c (((cfg1.win 20).blk t).view.emb j)
  refine (block_at (iblk1 V c 0 t) (iblk1 V c 1 t) (V c main_v18) (V c main_v19) (V c main_v20) (V c main_v21) (V c main_v15) (V c main_v22)
      (V c main_v23) (V c main_v24) (V c main_v25) (V c main_v26) (V c main_v16) (V c main_v27) (V c main_v17) (V c main_v28)
      (V c main_v29) (V c main_v30) (V c main_v31) (V c main_v32) j).trans ?_
  unfold denseArr regionParams
  have hx : (fun l : Fin 128 => (iblk1 V c 0 t : Vec Ideal S1000x128 .f32) (ix2 (j 0) l))
      = fun l => V c main_arg0 (ix2 ((((cfg1.win 20).blk t).view.emb j) 0) l) := by
    funext l
    show V c main_arg0 (((cfg1.win 0).blk t).view.emb (ix2 (j 0) l)) = _
    refine congrArg (V c main_arg0) (funext fun a => Fin.ext ?_)
    match a with
    | ⟨0, _⟩ => show win1_0.index t (0 : Fin 2) * 1000 + 1 * (j 0).val = win1_20.index t (0 : Fin 2) * 1000 + 1 * (j 0).val; omega
    | ⟨1, _⟩ => show win1_0.index t (1 : Fin 2) * 128 + 1 * l.val = l.val; omega
  have ha : (fun l : Fin 128 => (iblk1 V c 1 t : Vec Ideal S1000x128 .f32) (ix2 (j 0) l))
      = fun l => V c main_v14 (ix2 ((((cfg1.win 20).blk t).view.emb j) 0) l) := by
    funext l
    show V c main_v14 (((cfg1.win 1).blk t).view.emb (ix2 (j 0) l)) = _
    refine congrArg (V c main_v14) (funext fun a => Fin.ext ?_)
    match a with
    | ⟨0, _⟩ => show win1_1.index t (0 : Fin 2) * 1000 + 1 * (j 0).val = win1_20.index t (0 : Fin 2) * 1000 + 1 * (j 0).val; omega
    | ⟨1, _⟩ => show win1_1.index t (1 : Fin 2) * 128 + 1 * l.val = l.val; omega
  have hj : (j 1 : Fin 128) = (((cfg1.win 20).blk t).view.emb j) 1 :=
    Fin.ext (show (j 1).val = win1_20.index t (1 : Fin 2) * 128 + 1 * (j 1).val by omega)
  rw [hx, ha, hj]

/-- An index of the array is in point t's block iff each coordinate is in the block's range on its axis. -/
theorem mem_blk (t : Fin cfg1.N) (i : S100000x128.Idx) :
    i ∈ ((cfg1.win 20).blk t).view.set ↔ ∀ a : Fin 2, win1_20.index t a * S1000x128.size a ≤ (i a).val ∧ (i a).val < win1_20.index t a * S1000x128.size a + S1000x128.size a := by
  show i ∈ ((View.whole main_v33).slice (win1_20.rect t)).set ↔ _
  rw [View.set_slice_whole, Rect.mem_set_unit]
  exact Iff.rfl

/-- Row r of the array lies in the block of point r / 1000. -/
theorem cover (i : S100000x128.Idx) :
    ∃ t : Fin cfg1.N, (cfg1.win 20).flush t = true ∧ i ∈ ((cfg1.win 20).blk t).view.set := by
  have hi0 : (i 0).val < 100000 := (i 0).isLt
  have hi1 : (i 1).val < 128 := (i 1).isLt
  have hN : cfg1.N = 100 := N_1
  have hlt : (i 0).val / 1000 < cfg1.N := by rw [hN]; omega
  obtain ⟨e0, e1, e2, e3, e4, e5⟩ := idx_facts ⟨(i 0).val / 1000, hlt⟩
  refine ⟨⟨(i 0).val / 1000, hlt⟩, flush1_20 _, ?_⟩
  rw [mem_blk]
  intro a
  match a with
  | ⟨0, _⟩ =>
    show win1_20.index ⟨(i 0).val / 1000, hlt⟩ (0 : Fin 2) * 1000 ≤ (i 0).val ∧ (i 0).val < win1_20.index ⟨(i 0).val / 1000, hlt⟩ (0 : Fin 2) * 1000 + 1000
    rw [e4]; show (i 0).val / 1000 * 1000 ≤ (i 0).val ∧ (i 0).val < (i 0).val / 1000 * 1000 + 1000; omega
  | ⟨1, _⟩ =>
    show win1_20.index ⟨(i 0).val / 1000, hlt⟩ (1 : Fin 2) * 128 ≤ (i 1).val ∧ (i 1).val < win1_20.index ⟨(i 0).val / 1000, hlt⟩ (1 : Fin 2) * 128 + 128
    rw [e5]; omega

/-- After the region the result array holds the layer applied row by row to the arrays as the region found them. -/
theorem final (c : Dev nD) : (dat1 V c).arrAt 20 cfg1.N = denseArr V c :=
  (dat1 V c).arrAt_eq_of_cover 20 _ (fun t _ => flushed_eq V c t) cover

end Cert.KernelIdeal.DenseRegion

end
-- ==== Proof.MsgRegion.lean ====
/-
  The message kernel's result array. Its grid walks the 1,600,000 edge rows in 250 blocks of 6400 rows; at point t
  every window's block is rows 6400·t … 6400·t + 6399, all 128 columns, and the body stores max (x_src + e, 0)
  entry by entry. The blocks tile the array, so after the region the whole array holds that function of the two
  argument arrays as the region found them.
-/
import proofs.«139429_j60138132078771_1_alg».proof.Proof.Gen.KernelIdeal.Frame
import proofs.«139429_j60138132078771_1_alg».proof.Proof.Spec
import Idealize.ShloMosaic.Lib.Pipeline.Value
import Idealize.ShloMosaic.Lib.ValueIdx

set_option maxRecDepth 16384

noncomputable section

namespace Cert.KernelIdeal.MsgRegion

open Cert.KernelIdeal Cert.KernelIdeal.Gen Idealize.ShloMosaic Idealize.ShloMosaic.TcCoe Idealize.SL.Sem Cert.GineLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The messages of all edges, entry by entry. -/
abbrev msgArr (xs ea : S1600000x128.Idx → EReal) : S1600000x128.Idx → EReal := fun i => msg (xs i) (ea i)

/-- The body's stored value is max (x_src + e, 0) at every entry of the block. -/
theorem pay_eq (x0 x1 : Vec Ideal S6400x128 .f32) : k0_pay1 (F := Ideal) x0 x1 = fun y => msg (x0 y) (x1 y) := by
  unfold k0_pay1
  rw [shapeCast_self]
  rfl

/-- Every window's block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the message function of the two arrays. -/
theorem flushed_eq (c : Dev nD) (t : Fin cfg0.N) :
    (dat0 V c).flushed 2 t = ((cfg0.win 2).blk t).view.read (Elt Ideal) (msgArr (V c main_v10) (V c main_arg2)) := by
  show (cfg0.win 2).cut (grid0.coords t) ((dat0 V c).after 2 t) = _
  rw [after0_2]
  unfold out0_2
  rw [View.canon_unit_zero hz]
  simp only [View.ld_unit_zero (S := S6400x128) hz]
  rw [pay_eq]
  obtain ⟨e0, e1, e2, e3, e4, e5⟩ := idx_facts t
  funext j
  show msg (V c main_v10 (((cfg0.win 0).blk t).view.emb j)) (V c main_arg2 (((cfg0.win 1).blk t).view.emb j))
    = msg (V c main_v10 (((cfg0.win 2).blk t).view.emb j)) (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 6400 + 1 * (j 0).val = win0_2.index t (0 : Fin 2) * 6400 + 1 * (j 0).val; omega
    | ⟨1, _⟩ => show win0_1.index t (1 : Fin 2) * 128 + 1 * (j 1).val = win0_2.index t (1 : Fin 2) * 128 + 1 * (j 1).val; omega
  rw [h0, h1]

/-- An index of the array is in point t's block iff each coordinate is in the block's range on its axis. -/
theorem mem_blk (t : Fin cfg0.N) (i : S1600000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v11).slice (win0_2.rect t)).set ↔ _
  rw [View.set_slice_whole, Rect.mem_set_unit]
  exact Iff.rfl

/-- Row r of the array lies in the block of point r / 6400. -/
theorem cover (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 250 := N_0
  have hlt : (i 0).val / 6400 < cfg0.N := by rw [hN]; omega
  obtain ⟨e0, e1, e2, e3, e4, e5⟩ := idx_facts ⟨(i 0).val / 6400, hlt⟩
  refine ⟨⟨(i 0).val / 6400, hlt⟩, flush0_2 _, ?_⟩
  rw [mem_blk]
  intro a
  match a with
  | ⟨0, _⟩ =>
    show win0_2.index ⟨(i 0).val / 6400, hlt⟩ (0 : Fin 2) * 6400 ≤ (i 0).val ∧ (i 0).val < win0_2.index ⟨(i 0).val / 6400, hlt⟩ (0 : Fin 2) * 6400 + 6400
    rw [e4]; show (i 0).val / 6400 * 6400 ≤ (i 0).val ∧ (i 0).val < (i 0).val / 6400 * 6400 + 6400; omega
  | ⟨1, _⟩ =>
    show win0_2.index ⟨(i 0).val / 6400, hlt⟩ (1 : Fin 2) * 128 ≤ (i 1).val ∧ (i 1).val < win0_2.index ⟨(i 0).val / 6400, hlt⟩ (1 : Fin 2) * 128 + 128
    rw [e5]; omega

/-- After the region the message array holds max (x_src + e, 0) of the two arrays as the region found them. -/
theorem final (c : Dev nD) : (dat0 V c).arrAt 2 cfg0.N = msgArr (V c main_v10) (V c main_arg2) :=
  (dat0 V c).arrAt_eq_of_cover 2 _ (fun t _ => flushed_eq V c t) cover

end Cert.KernelIdeal.MsgRegion

end
-- ==== Proof.RefRows.lean ====
/-
  The reference program read row by row: its result at (r, j) is the layer's row function of row r of the node
  features and row r of the summed messages, and its messages are max (x_src + e, 0) entry by entry.
-/
import proofs.«139429_j60138132078771_1_alg».proof.Proof.Gen.ReferenceIdeal.Read
import proofs.«139429_j60138132078771_1_alg».proof.Proof.Spec
import proofs.«139429_j60138132078771_1_alg».proof.Proof.LibDenseLayer

noncomputable section

namespace Cert.ReferenceIdeal.RefValue

open Cert.ReferenceIdeal Cert.ReferenceIdeal.Read Idealize.ShloMosaic Idealize.ShloMosaic.TcCoe Idealize.ShloMosaic.ValueIdx Cert.GineLayer

/-- A vector of 128 entries as a function of its one coordinate. -/
def rvec (v : (⟨S128, .f32⟩ : BufTy).Contents (Elt Ideal)) : Fin 128 → EReal := fun j => v (ix1 j)

/-- The layer's parameters as the reference's arguments hold them. -/
def rparams (x3 x4 x5 x6 : (⟨S128, .f32⟩ : BufTy).Contents (Elt Ideal)) (x7 : (⟨S128x128, .f32⟩ : BufTy).Contents (Elt Ideal)) (x8 x9 x10 x11 x12 : (⟨S128, .f32⟩ : BufTy).Contents (Elt Ideal)) (x13 : (⟨S128x256, .f32⟩ : BufTy).Contents (Elt Ideal)) (x14 : (⟨S256, .f32⟩ : BufTy).Contents (Elt Ideal)) (x15 : (⟨S256x128, .f32⟩ : BufTy).Contents (Elt Ideal)) (x16 x17 x18 x19 x20 : (⟨S128, .f32⟩ : BufTy).Contents (Elt Ideal)) : Params where
  n0 := ⟨rvec x3, rvec x4, rvec x5, rvec x6⟩
  W0 := fun l j => x7 (ix2 l j)
  c0 := rvec x8
  n1 := ⟨rvec x9, rvec x10, rvec x11, rvec x12⟩
  W1 := fun l q => x13 (ix2 l q)
  c1 := fun q => x14 (ix1 q)
  W2 := fun q j => x15 (ix2 q j)
  c2 := rvec x16
  n2 := ⟨rvec x17, rvec x18, rvec x19, rvec x20⟩

/-! ## The stored vectors, repeated down the rows

  A vector of n entries laid along a one-row matrix and that row repeated down the rows reads, at (r, j), the
  vector's entry j. -/

theorem row_v18 (v : (⟨S128, .f32⟩ : BufTy).Contents (Elt Ideal)) (r : Fin 100000) (j : Fin 128) :
    val_main_v18 (F := Ideal) v (ix2 r j) = v (ix1 j) := by
  unfold val_main_v18 val_main_v17
  exact DenseLayer.bias_inDim_apply _ _ v r j

theorem row_v27 (v : (⟨S128, .f32⟩ : BufTy).Contents (Elt Ideal)) (r : Fin 100000) (j : Fin 128) :
    val_main_v27 (F := Ideal) v (ix2 r j) = v (ix1 j) := by
  unfold val_main_v27 val_main_v26
  exact DenseLayer.bias_inDim_apply _ _ v r j

theorem row_v30 (v : (⟨S128, .f32⟩ : BufTy).Contents (Elt Ideal)) (r : Fin 100000) (j : Fin 128) :
    val_main_v30 (F := Ideal) v (ix2 r j) = v (ix1 j) := by
  unfold val_main_v30 val_main_v29
  exact DenseLayer.bias_inDim_apply _ _ v r j

theorem row_v35 (v : (⟨S128, .f32⟩ : BufTy).Contents (Elt Ideal)) (r : Fin 100000) (j : Fin 128) :
    val_main_v35 (F := Ideal) v (ix2 r j) = v (ix1 j) := by
  unfold val_main_v35 val_main_v34
  exact DenseLayer.bias_inDim_apply _ _ v r j

theorem row_v39 (v : (⟨S128, .f32⟩ : BufTy).Contents (Elt Ideal)) (r : Fin 100000) (j : Fin 128) :
    val_main_v39 (F := Ideal) v (ix2 r j) = v (ix1 j) := by
  unfold val_main_v39 val_main_v38
  exact DenseLayer.bias_inDim_apply _ _ v r j

theorem row_v48 (v : (⟨S128, .f32⟩ : BufTy).Contents (Elt Ideal)) (r : Fin 100000) (j : Fin 128) :
    val_main_v48 (F := Ideal) v (ix2 r j) = v (ix1 j) := by
  unfold val_main_v48 val_main_v47
  exact DenseLayer.bias_inDim_apply _ _ v r j

theorem row_v51 (v : (⟨S128, .f32⟩ : BufTy).Contents (Elt Ideal)) (r : Fin 100000) (j : Fin 128) :
    val_main_v51 (F := Ideal) v (ix2 r j) = v (ix1 j) := by
  unfold val_main_v51 val_main_v50
  exact DenseLayer.bias_inDim_apply _ _ v r j

theorem row_v60 (v : (⟨S128, .f32⟩ : BufTy).Contents (Elt Ideal)) (r : Fin 100000) (j : Fin 128) :
    val_main_v60 (F := Ideal) v (ix2 r j) = v (ix1 j) := by
  unfold val_main_v60 val_main_v59
  exact DenseLayer.bias_inDim_apply _ _ v r j

theorem row_v64 (v : (⟨S128, .f32⟩ : BufTy).Contents (Elt Ideal)) (r : Fin 100000) (j : Fin 128) :
    val_main_v64 (F := Ideal) v (ix2 r j) = v (ix1 j) := by
  unfold val_main_v64 val_main_v63
  exact DenseLayer.bias_inDim_apply _ _ v r j

theorem row_v73 (v : (⟨S128, .f32⟩ : BufTy).Contents (Elt Ideal)) (r : Fin 100000) (j : Fin 128) :
    val_main_v73 (F := Ideal) v (ix2 r j) = v (ix1 j) := by
  unfold val_main_v73 val_main_v72
  exact DenseLayer.bias_inDim_apply _ _ v r j

theorem row_v76 (v : (⟨S128, .f32⟩ : BufTy).Contents (Elt Ideal)) (r : Fin 100000) (j : Fin 128) :
    val_main_v76 (F := Ideal) v (ix2 r j) = v (ix1 j) := by
  unfold val_main_v76 val_main_v75
  exact DenseLayer.bias_inDim_apply _ _ v r j

theorem row_v55 (v : (⟨S256, .f32⟩ : BufTy).Contents (Elt Ideal)) (r : Fin 100000) (q : Fin 256) :
    val_main_v55 (F := Ideal) v (ix2 r q) = v (ix1 q) := by
  unfold val_main_v55 val_main_v54
  exact DenseLayer.bias_inDim_apply _ _ v r q

/-! ## The reciprocal square roots of the offset variances, repeated down the rows -/

theorem row_v24 (v : (⟨S128, .f32⟩ : BufTy).Contents (Elt Ideal)) (r : Fin 100000) (j : Fin 128) :
    val_main_v24 (F := Ideal) v (ix2 r j) = Ideal.rsqrt (v (ix1 j) + eps) := by
  unfold val_main_v24 val_main_v23
  rw [DenseLayer.bias_inDim_apply, val_main_v22_apply, val_main_v21_apply, val_main_v20_apply, val_main_cst_1_apply]
  rfl

theorem row_v45 (v : (⟨S128, .f32⟩ : BufTy).Contents (Elt Ideal)) (r : Fin 100000) (j : Fin 128) :
    val_main_v45 (F := Ideal) v (ix2 r j) = Ideal.rsqrt (v (ix1 j) + eps) := by
  unfold val_main_v45 val_main_v44
  rw [DenseLayer.bias_inDim_apply, val_main_v43_apply, val_main_v42_apply, val_main_v41_apply, val_main_cst_2_apply]
  rfl

theorem row_v70 (v : (⟨S128, .f32⟩ : BufTy).Contents (Elt Ideal)) (r : Fin 100000) (j : Fin 128) :
    val_main_v70 (F := Ideal) v (ix2 r j) = Ideal.rsqrt (v (ix1 j) + eps) := by
  unfold val_main_v70 val_main_v69
  rw [DenseLayer.bias_inDim_apply, val_main_v68_apply, val_main_v67_apply, val_main_v66_apply, val_main_cst_3_apply]
  rfl

/-! ## Where the three products read their operands -/

theorem lidx_v33 (r : Fin 100000) (j : Fin 128) (k : Fin 128) : lidx_main_v33 (ix2 r j) k = ix2 r k := by
  funext a
  match a with
  | ⟨0, _⟩ => rfl
  | ⟨1, _⟩ => rfl

theorem ridx_v33 (r : Fin 100000) (j : Fin 128) (k : Fin 128) : ridx_main_v33 (ix2 r j) k = ix2 k j := by
  funext a
  match a with
  | ⟨0, _⟩ => rfl
  | ⟨1, _⟩ => rfl

theorem lidx_v53 (r : Fin 100000) (j : Fin 256) (k : Fin 128) : lidx_main_v53 (ix2 r j) k = ix2 r k := by
  funext a
  match a with
  | ⟨0, _⟩ => rfl
  | ⟨1, _⟩ => rfl

theorem ridx_v53 (r : Fin 100000) (j : Fin 256) (k : Fin 128) : ridx_main_v53 (ix2 r j) k = ix2 k j := by
  funext a
  match a with
  | ⟨0, _⟩ => rfl
  | ⟨1, _⟩ => rfl

theorem lidx_v58 (r : Fin 100000) (j : Fin 128) (k : Fin 256) : lidx_main_v58 (ix2 r j) k = ix2 r k := by
  funext a
  match a with
  | ⟨0, _⟩ => rfl
  | ⟨1, _⟩ => rfl

theorem ridx_v58 (r : Fin 100000) (j : Fin 128) (k : Fin 256) : ridx_main_v58 (ix2 r j) k = ix2 k j := by
  funext a
  match a with
  | ⟨0, _⟩ => rfl
  | ⟨1, _⟩ => rfl

/-! ## The node update, row by row -/

section Rows

variable (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 x4 x5 x6 : (⟨S128, .f32⟩ : BufTy).Contents (Elt Ideal)) (x7 : (⟨S128x128, .f32⟩ : BufTy).Contents (Elt Ideal)) (x8 x9 x10 x11 x12 : (⟨S128, .f32⟩ : BufTy).Contents (Elt Ideal)) (x13 : (⟨S128x256, .f32⟩ : BufTy).Contents (Elt Ideal)) (x14 : (⟨S256, .f32⟩ : BufTy).Contents (Elt Ideal)) (x15 : (⟨S256x128, .f32⟩ : BufTy).Contents (Elt Ideal)) (x16 x17 x18 x19 x20 : (⟨S128, .f32⟩ : BufTy).Contents (Elt Ideal)) (r : Fin 100000)

local notation "PP" => rparams x3 x4 x5 x6 x7 x8 x9 x10 x11 x12 x13 x14 x15 x16 x17 x18 x19 x20
local notation "XR" => fun l : Fin 128 => x0 (ix2 r l)
local notation "AR" => fun l : Fin 128 => val_main_v15 (F := Ideal) x0 x1 x2 (ix2 r l)

/-- The rectified normalised sum, at (r, l). -/
theorem row_act0 (l : Fin 128) : val_main_v32 (F := Ideal) x0 x1 x2 x3 x4 x5 x6 (ix2 r l) = act0 PP XR AR l := by
  rw [val_main_v32_apply, val_main_v31_apply, val_main_v28_apply, val_main_v25_apply, val_main_v19_apply, val_main_v16_apply, row_v18, row_v24, row_v27, row_v30, val_main_call1_v0_apply, val_main_call1_cst_apply]
  rfl

/-- The first product, at (r, j). -/
theorem row_v33 (j : Fin 128) : val_main_v33 (F := Ideal) x0 x1 x2 x3 x4 x5 x6 x7 (ix2 r j) = ∑ l : Fin 128, act0 PP XR AR l * x7 (ix2 l j) := by
  rw [val_main_v33_apply]
  refine Finset.sum_congr rfl fun k _ => ?_
  rw [lidx_v33 r j k, ridx_v33 r j k, row_act0 x0 x1 x2 x3 x4 x5 x6 x7 x8 x9 x10 x11 x12 x13 x14 x15 x16 x17 x18 x19 x20 r k]

/-- The first residual block's normalised output, at (r, j). -/
theorem row_h1 (j : Fin 128) : val_main_v52 (F := Ideal) x0 x1 x2 x3 x4 x5 x6 x7 x8 x9 x10 x11 x12 (ix2 r j) = h1 PP XR AR j := by
  rw [val_main_v52_apply, val_main_v49_apply, val_main_v46_apply, val_main_v40_apply, val_main_v37_apply, val_main_v36_apply, row_v33 x0 x1 x2 x3 x4 x5 x6 x7 x8 x9 x10 x11 x12 x13 x14 x15 x16 x17 x18 x19 x20 r j, row_v35, row_v39, row_v45, row_v48, row_v51]
  rfl

/-- The second product, at (r, q). -/
theorem row_v53 (q : Fin 256) : val_main_v53 (F := Ideal) x0 x1 x2 x3 x4 x5 x6 x7 x8 x9 x10 x11 x12 x13 (ix2 r q) = ∑ l : Fin 128, h1 PP XR AR l * x13 (ix2 l q) := by
  rw [val_main_v53_apply]
  refine Finset.sum_congr rfl fun k _ => ?_
  rw [lidx_v53 r q k, ridx_v53 r q k, row_h1 x0 x1 x2 x3 x4 x5 x6 x7 x8 x9 x10 x11 x12 x13 x14 x15 x16 x17 x18 x19 x20 r k]

/-- The feed-forward block's hidden row, at (r, q). -/
theorem row_hid (q : Fin 256) : val_main_v57 (F := Ideal) x0 x1 x2 x3 x4 x5 x6 x7 x8 x9 x10 x11 x12 x13 x14 (ix2 r q) = hid PP XR AR q := by
  rw [val_main_v57_apply, val_main_v56_apply, row_v53 x0 x1 x2 x3 x4 x5 x6 x7 x8 x9 x10 x11 x12 x13 x14 x15 x16 x17 x18 x19 x20 r q, row_v55, val_main_call2_v0_apply, val_main_call2_cst_apply]
  rfl

/-- The third product, at (r, j). -/
theorem row_v58 (j : Fin 128) : val_main_v58 (F := Ideal) x0 x1 x2 x3 x4 x5 x6 x7 x8 x9 x10 x11 x12 x13 x14 x15 (ix2 r j) = ∑ q : Fin 256, hid PP XR AR q * x15 (ix2 q j) := by
  rw [val_main_v58_apply]
  refine Finset.sum_congr rfl fun k _ => ?_
  rw [lidx_v58 r j k, ridx_v58 r j k, row_hid x0 x1 x2 x3 x4 x5 x6 x7 x8 x9 x10 x11 x12 x13 x14 x15 x16 x17 x18 x19 x20 r k]

/-- The layer's result, at (r, j). -/
theorem row_dense (j : Fin 128) : val_main_v77 (F := Ideal) x0 x1 x2 x3 x4 x5 x6 x7 x8 x9 x10 x11 x12 x13 x14 x15 x16 x17 x18 x19 x20 (ix2 r j) = denseRow PP XR AR j := by
  rw [val_main_v77_apply, val_main_v74_apply, val_main_v71_apply, val_main_v65_apply, val_main_v62_apply, val_main_v61_apply, row_v58 x0 x1 x2 x3 x4 x5 x6 x7 x8 x9 x10 x11 x12 x13 x14 x15 x16 x17 x18 x19 x20 r j, row_v60, row_h1 x0 x1 x2 x3 x4 x5 x6 x7 x8 x9 x10 x11 x12 x13 x14 x15 x16 x17 x18 x19 x20 r j, row_v64, row_v70, row_v73, row_v76]
  rfl

end Rows

/-- The reference's messages, entry by entry. -/
theorem ref_msg (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) :
    val_main_v12 (F := Ideal) x0 x1 x2 = fun i => msg (val_main_v10 (F := Ideal) x0 x1 i) (x2 i) := by
  funext i
  rw [val_main_v12_apply, val_main_v11_apply, val_main_call0_v0_apply, val_main_call0_cst_apply]
  rfl

/-- The reference's result at (r, j). -/
theorem ref_dense (x0 : (⟨S100000x128, .f32⟩ : BufTy).Contents (Elt Ideal)) (x1 : (⟨S2x1600000, .i32⟩ : BufTy).Contents (Elt Ideal)) (x2 : (⟨S1600000x128, .f32⟩ : BufTy).Contents (Elt Ideal)) (x3 x4 x5 x6 : (⟨S128, .f32⟩ : BufTy).Contents (Elt Ideal)) (x7 : (⟨S128x128, .f32⟩ : BufTy).Contents (Elt Ideal)) (x8 x9 x10 x11 x12 : (⟨S128, .f32⟩ : BufTy).Contents (Elt Ideal)) (x13 : (⟨S128x256, .f32⟩ : BufTy).Contents (Elt Ideal)) (x14 : (⟨S256, .f32⟩ : BufTy).Contents (Elt Ideal)) (x15 : (⟨S256x128, .f32⟩ : BufTy).Contents (Elt Ideal)) (x16 x17 x18 x19 x20 : (⟨S128, .f32⟩ : BufTy).Contents (Elt Ideal)) (r : Fin 100000) (j : Fin 128) :
    val_main_v77 (F := Ideal) x0 x1 x2 x3 x4 x5 x6 x7 x8 x9 x10 x11 x12 x13 x14 x15 x16 x17 x18 x19 x20 (ix2 r j)
      = denseRow (rparams x3 x4 x5 x6 x7 x8 x9 x10 x11 x12 x13 x14 x15 x16 x17 x18 x19 x20)
          (fun l => x0 (ix2 r l)) (fun l => val_main_v15 (F := Ideal) x0 x1 x2 (ix2 r l)) j := by
  exact row_dense x0 x1 x2 x3 x4 x5 x6 x7 x8 x9 x10 x11 x12 x13 x14 x15 x16 x17 x18 x19 x20 r j

end Cert.ReferenceIdeal.RefValue

end
-- ==== Proof.EntryReads.lean ====
/-
  What the two kernel regions find in the buffers they read, as functions of the launch memory. The host operations
  around the regions are the reference's own (slices, casts, one gather, one accumulating scatter), so each buffer is
  the reference's stage of the same name applied to the arguments: the gathered source rows, the edge features, the
  summed messages, the node features, and every parameter as one row or as its matrix.
-/
import proofs.«139429_j60138132078771_1_alg».proof.Proof.Gen.KernelIdeal.Frame
import proofs.«139429_j60138132078771_1_alg».proof.Proof.Gen.ReferenceIdeal.Read
import proofs.«139429_j60138132078771_1_alg».proof.Proof.MsgRegion
import proofs.«139429_j60138132078771_1_alg».proof.Proof.RefRows
import Idealize.ShloMosaic.Lib.StableHlo.Run

set_option maxRecDepth 16384

noncomputable section

namespace Cert.KernelIdeal.EntryReads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's entry -/

/-- The gathered source rows, as the first region finds them. -/
theorem V1_v10 (c : Dev nD) : V1 m ρ c main_v10
    = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  dsimp only [hostOps0]
  after_results
  rfl

/-- The edge features, as the first region finds them. -/
theorem V1_arg2 (c : Dev nD) : V1 m ρ c main_arg2 = (m ((c : Thread nD τ).loc main_arg2)) := by
  show StableHlo.after hostOps0 (W0 m ρ c) (Proc.devRef .tc main_arg2) = _
  dsimp only [hostOps0]
  after_results

/-! ## The first region's exit -/

/-- The destination indices, untouched by the first region. -/
theorem W2_v3 (c : Dev nD) : W2 m ρ c (Proc.devRef .tc main_v3)
    = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  dsimp only [hostOps0]
  after_results
  rfl

/-- The messages the first region leaves are the reference's. -/
theorem W2_v11 (c : Dev nD) : W2 m ρ c (Proc.devRef .tc main_v11)
    = Cert.ReferenceIdeal.Read.val_main_v12 (F := Ideal) (m ((c : Thread nD τ).loc main_arg0)) (m ((c : Thread nD τ).loc main_arg1)) (m ((c : Thread nD τ).loc main_arg2)) := by
  refine (W2_arr m ρ c 2).trans ((Cert.KernelIdeal.MsgRegion.final (V1 m ρ) c).trans ?_)
  rw [V1_v10 m ρ c, V1_arg2 m ρ c, Cert.ReferenceIdeal.RefValue.ref_msg]

/-- An argument no host operation before the first region writes and the first region does not stage is, at the
    region's exit, as launched. -/
local macro "kept_thm" n:ident mm:ident rr:ident b:ident : command =>
  `(theorem $n (c : Dev nD) : W2 $mm $rr c (Proc.devRef .tc $b) = $mm ((c : Thread nD τ).loc $b) := by
      rw [W2_of_ne $mm $rr c $b (by decide)]
      show StableHlo.after hostOps0 (W0 $mm $rr c) (Proc.devRef .tc $b) = _
      dsimp only [hostOps0]
      after_results)

kept_thm W2_arg0 m ρ main_arg0
kept_thm W2_arg3 m ρ main_arg3
kept_thm W2_arg4 m ρ main_arg4
kept_thm W2_arg5 m ρ main_arg5
kept_thm W2_arg6 m ρ main_arg6
kept_thm W2_arg7 m ρ main_arg7
kept_thm W2_arg8 m ρ main_arg8
kept_thm W2_arg9 m ρ main_arg9
kept_thm W2_arg10 m ρ main_arg10
kept_thm W2_arg11 m ρ main_arg11
kept_thm W2_arg12 m ρ main_arg12
kept_thm W2_arg13 m ρ main_arg13
kept_thm W2_arg14 m ρ main_arg14
kept_thm W2_arg15 m ρ main_arg15
kept_thm W2_arg16 m ρ main_arg16
kept_thm W2_arg17 m ρ main_arg17
kept_thm W2_arg18 m ρ main_arg18
kept_thm W2_arg19 m ρ main_arg19
kept_thm W2_arg20 m ρ main_arg20

/-! ## The second region's entry -/

/-- The node features, as the second region finds them. -/
theorem V3_arg0 (c : Dev nD) : V3 m ρ c main_arg0 = (m ((c : Thread nD τ).loc main_arg0)) := by
  show StableHlo.after hostOps1 (W2 m ρ c) (Proc.devRef .tc main_arg0) = _
  dsimp only [hostOps1]
  after_results
  exact W2_arg0 m ρ c

/-- The summed messages, as the second region finds them: the reference's accumulating scatter of the reference's
    messages by the reference's destination indices. -/
theorem V3_v14 (c : Dev nD) : V3 m ρ c main_v14
    = Cert.ReferenceIdeal.Read.val_main_v15 (F := Ideal) (m ((c : Thread nD τ).loc main_arg0)) (m ((c : Thread nD τ).loc main_arg1)) (m ((c : Thread nD τ).loc main_arg2)) := by
  show StableHlo.after hostOps1 (W2 m ρ c) (Proc.devRef .tc main_v14) = _
  dsimp only [hostOps1]
  after_results
  rw [W2_v3 m ρ c, W2_v11 m ρ c]
  rfl

/-- A parameter vector cast to one row, as the second region finds it. -/
local macro "row_thm" n:ident mm:ident rr:ident y:ident b:ident k:ident s:ident h:ident : command =>
  `(theorem $n (c : Dev nD) : V3 $mm $rr c $y = shapeCast $s ($mm ((c : Thread nD τ).loc $b)) $h := by
      show StableHlo.after hostOps1 (W2 $mm $rr c) (Proc.devRef .tc $y) = _
      dsimp only [hostOps1]
      after_results
      rw [$k $mm $rr c]
      rfl)

row_thm V3_v18 m ρ main_v18 main_arg3 W2_arg3 S1x128 shapeCasts_S128_S1x128
row_thm V3_v19 m ρ main_v19 main_arg4 W2_arg4 S1x128 shapeCasts_S128_S1x128
row_thm V3_v20 m ρ main_v20 main_arg5 W2_arg5 S1x128 shapeCasts_S128_S1x128
row_thm V3_v21 m ρ main_v21 main_arg6 W2_arg6 S1x128 shapeCasts_S128_S1x128
row_thm V3_v22 m ρ main_v22 main_arg8 W2_arg8 S1x128 shapeCasts_S128_S1x128
row_thm V3_v23 m ρ main_v23 main_arg9 W2_arg9 S1x128 shapeCasts_S128_S1x128
row_thm V3_v24 m ρ main_v24 main_arg10 W2_arg10 S1x128 shapeCasts_S128_S1x128
row_thm V3_v25 m ρ main_v25 main_arg11 W2_arg11 S1x128 shapeCasts_S128_S1x128
row_thm V3_v26 m ρ main_v26 main_arg12 W2_arg12 S1x128 shapeCasts_S128_S1x128
row_thm V3_v27 m ρ main_v27 main_arg14 W2_arg14 S1x256 shapeCasts_S256_S1x256
row_thm V3_v28 m ρ main_v28 main_arg16 W2_arg16 S1x128 shapeCasts_S128_S1x128
row_thm V3_v29 m ρ main_v29 main_arg17 W2_arg17 S1x128 shapeCasts_S128_S1x128
row_thm V3_v30 m ρ main_v30 main_arg18 W2_arg18 S1x128 shapeCasts_S128_S1x128
row_thm V3_v31 m ρ main_v31 main_arg19 W2_arg19 S1x128 shapeCasts_S128_S1x128
row_thm V3_v32 m ρ main_v32 main_arg20 W2_arg20 S1x128 shapeCasts_S128_S1x128

/-- A weight matrix in the narrower format, as the second region finds it: at the ideal values the matrix itself. -/
local macro "mat_thm" n:ident mm:ident rr:ident y:ident b:ident k:ident s:ident : command =>
  `(theorem $n (c : Dev nD) : V3 $mm $rr c $y
        = (truncf .bf16 ($mm ((c : Thread nD τ).loc $b) : FVec Ideal $s .f32) bitsLt_bf16_f32 : FVec Ideal $s .bf16) := by
      show StableHlo.after hostOps1 (W2 $mm $rr c) (Proc.devRef .tc $y) = _
      dsimp only [hostOps1]
      after_results
      rw [$k $mm $rr c])

mat_thm V3_v15 m ρ main_v15 main_arg7 W2_arg7 S128x128
mat_thm V3_v16 m ρ main_v16 main_arg13 W2_arg13 S128x256
mat_thm V3_v17 m ρ main_v17 main_arg15 W2_arg15 S256x128

end Cert.KernelIdeal.EntryReads

end
-- ==== Proof.KernelValue.lean ====
/-
  The kernel program's result as one function of the launch memory: row r of the result is the layer's row function
  of row r of the node features and row r of the summed messages, where the summed messages are the reference's own
  accumulating scatter of max (x_src + e, 0) and the parameters are the arguments read as vectors and matrices.
-/
import proofs.«139429_j60138132078771_1_alg».proof.Proof.RunNamed
import proofs.«139429_j60138132078771_1_alg».proof.Proof.DenseRegion
import proofs.«139429_j60138132078771_1_alg».proof.Proof.EntryReads
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem Cert.GineLayer
open Idealize.ShloMosaic.ValueIdx Cert.KernelIdeal.DenseBlock Cert.KernelIdeal.DenseRegion Cert.KernelIdeal.EntryReads
open Cert.ReferenceIdeal.RefValue

variable (m : (ℓ : Loc nD τ sig) → Buf (Elt Ideal) ℓ) (ρ : Dev nD → PrngReg)

/-- A vector of 128 entries cast to one row reads, along the row, the vector. -/
theorem krow_cast (v : Vec Ideal S128 .f32) :
    krow (shapeCast S1x128 v shapeCasts_S128_S1x128) = rvec v :=
  funext fun j => shapeCast_a_1a_apply v shapeCasts_S128_S1x128 0 j

/-- A vector of 256 entries cast to one row reads, along the row, the vector. -/
theorem row256_cast (v : Vec Ideal S256 .f32) :
    (fun q : Fin 256 => shapeCast S1x256 v shapeCasts_S256_S1x256 (ix2 (0 : Fin 1) q)) = fun q => v (ix1 q) :=
  funext fun q => shapeCast_a_1a_apply v shapeCasts_S256_S1x256 0 q

/-- One-row casts of the vectors and the matrices in the narrower format hold the layer's parameters as the vectors
    and matrices themselves do. -/
theorem params_cast (a3 a4 a5 a6 : Vec Ideal S128 .f32) (a7 : Vec Ideal S128x128 .f32) (a8 a9 a10 a11 a12 : Vec Ideal S128 .f32)
    (a13 : Vec Ideal S128x256 .f32) (a14 : Vec Ideal S256 .f32) (a15 : Vec Ideal S256x128 .f32) (a16 a17 a18 a19 a20 : Vec Ideal S128 .f32) :
    kparams (shapeCast S1x128 a3 shapeCasts_S128_S1x128) (shapeCast S1x128 a4 shapeCasts_S128_S1x128)
        (shapeCast S1x128 a5 shapeCasts_S128_S1x128) (shapeCast S1x128 a6 shapeCasts_S128_S1x128)
        (truncf .bf16 (a7 : FVec Ideal S128x128 .f32) bitsLt_bf16_f32 : FVec Ideal S128x128 .bf16) (shapeCast S1x128 a8 shapeCasts_S128_S1x128)
        (shapeCast S1x128 a9 shapeCasts_S128_S1x128) (shapeCast S1x128 a10 shapeCasts_S128_S1x128)
        (shapeCast S1x128 a11 shapeCasts_S128_S1x128) (shapeCast S1x128 a12 shapeCasts_S128_S1x128)
        (truncf .bf16 (a13 : FVec Ideal S128x256 .f32) bitsLt_bf16_f32 : FVec Ideal S128x256 .bf16) (shapeCast S1x256 a14 shapeCasts_S256_S1x256)
        (truncf .bf16 (a15 : FVec Ideal S256x128 .f32) bitsLt_bf16_f32 : FVec Ideal S256x128 .bf16) (shapeCast S1x128 a16 shapeCasts_S128_S1x128)
        (shapeCast S1x128 a17 shapeCasts_S128_S1x128) (shapeCast S1x128 a18 shapeCasts_S128_S1x128)
        (shapeCast S1x128 a19 shapeCasts_S128_S1x128) (shapeCast S1x128 a20 shapeCasts_S128_S1x128)
      = rparams a3 a4 a5 a6 a7 a8 a9 a10 a11 a12 a13 a14 a15 a16 a17 a18 a19 a20 := by
  unfold kparams rparams
  simp only [Params.mk.injEq, Norm.mk.injEq]
  exact ⟨⟨krow_cast a3, krow_cast a4, krow_cast a5, krow_cast a6⟩, rfl, krow_cast a8,
    ⟨krow_cast a9, krow_cast a10, krow_cast a11, krow_cast a12⟩, rfl, row256_cast a14, rfl, krow_cast a16,
    ⟨krow_cast a17, krow_cast a18, krow_cast a19, krow_cast a20⟩⟩

/-- The parameters the second region finds are the arguments, read as vectors and matrices. -/
theorem params_eq (c : Dev nD) : regionParams (V3 m ρ) c = rparams (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold regionParams
  rw [V3_v18 m ρ c, V3_v19 m ρ c, V3_v20 m ρ c, V3_v21 m ρ c, V3_v15 m ρ c, V3_v22 m ρ c, V3_v23 m ρ c, V3_v24 m ρ c,
    V3_v25 m ρ c, V3_v26 m ρ c, V3_v16 m ρ c, V3_v27 m ρ c, V3_v17 m ρ c, V3_v28 m ρ c, V3_v29 m ρ c, V3_v30 m ρ c,
    V3_v31 m ρ c, V3_v32 m ρ c]
  exact params_cast (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The result array as a function of the launch memory. -/
def result (c : Dev nD) : S100000x128.Idx → EReal := fun i =>
  denseRow (rparams (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
    (fun l => (m ((c : Thread nD τ).loc main_arg0)) (ix2 (i 0) l))
    (fun l => Cert.ReferenceIdeal.Read.val_main_v15 (F := Ideal) (m ((c : Thread nD τ).loc main_arg0)) (m ((c : Thread nD τ).loc main_arg1)) (m ((c : Thread nD τ).loc main_arg2)) (ix2 (i 0) l)) (i 1)

/-- The last boundary's contents at the result array are that function. -/
theorem W4_v33 (c : Dev nD) : W4 m ρ c (Proc.devRef .tc main_v33) = result m c := by
  refine (W4_arr m ρ c 20).trans ((Cert.KernelIdeal.DenseRegion.final (V3 m ρ) c).trans ?_)
  unfold denseArr result
  rw [params_eq m ρ c, V3_arg0 m ρ c, V3_v14 m ρ c]

/-- The run of the kernel program: it terminates without a fault, the result array ends at `result` and the
    arguments end as launched. -/
theorem run : θ_run defs (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (W4_v33 m ρ c), (h c).2⟩) (run_named m ρ)

end Cert.KernelIdeal.KernelValue

end
-- ==== Proof.lean ====
/-
  One layer of a graph network on 100000 nodes, 1600000 edges and 128 features: the kernel program against the
  reference, over the extended reals.

  Both programs gather the source rows x[src] and sum the messages max (x_src + e, 0) into their destination rows
  with the same host operations. The kernel program forms the messages in a first kernel region, entry by entry, and
  applies the node update in a second one, block by block of 1000 rows; the reference does both with host operations
  on whole arrays. The node update is the same chain on both sides — normalise, rectify, multiply by a weight matrix,
  add the bias and the residual, twice, and normalise again — in the same order, and a change of float format is the
  identity here, so row r of both results is one function (`Cert.GineLayer.denseRow`) of row r of the node features and
  row r of the summed messages. No law of the extended reals beyond that is used, so the precondition is not opened.

  The frames of the two kernel programs are the generated ones; the reference's frame is its generated run with the
  result dropped; the idealisation rewrote nothing, so what it preserves is trivial.
-/
import proofs.«139429_j60138132078771_1_alg».proof.Defs
import proofs.«139429_j60138132078771_1_alg».proof.Proof.Gen.Kernel
import proofs.«139429_j60138132078771_1_alg».proof.Proof.Gen.Kernel.Skeleton
import proofs.«139429_j60138132078771_1_alg».proof.Proof.Gen.Kernel.Launch
import proofs.«139429_j60138132078771_1_alg».proof.Proof.Gen.Kernel.Points
import proofs.«139429_j60138132078771_1_alg».proof.Proof.Gen.Kernel.Frame
import proofs.«139429_j60138132078771_1_alg».proof.Proof.Gen.KernelIdeal
import proofs.«139429_j60138132078771_1_alg».proof.Proof.Gen.KernelIdeal.Skeleton
import proofs.«139429_j60138132078771_1_alg».proof.Proof.Gen.KernelIdeal.Launch
import proofs.«139429_j60138132078771_1_alg».proof.Proof.Gen.KernelIdeal.Points
import proofs.«139429_j60138132078771_1_alg».proof.Proof.Gen.KernelIdeal.Frame
import proofs.«139429_j60138132078771_1_alg».proof.Proof.Gen.ReferenceIdeal
import proofs.«139429_j60138132078771_1_alg».proof.Proof.Gen.Pre_finite_inputs
import proofs.«139429_j60138132078771_1_alg».proof.Proof.Gen.ReferenceIdeal.Run
import proofs.«139429_j60138132078771_1_alg».proof.Proof.Gen.ReferenceIdeal.Read
import proofs.«139429_j60138132078771_1_alg».proof.Proof.KernelValue
import proofs.«139429_j60138132078771_1_alg».proof.Proof.RefRows
import Idealize.ShloMosaic.Adequacy
import Idealize.ShloMosaic.Init

noncomputable section

namespace Cert.Proof

open Idealize.ShloMosaic Idealize.SL.Sem Idealize.ShloMosaic.ValueIdx

/-- The kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result at any index is the layer's row function of that index's row. -/
theorem ref_result_apply
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000x128, .f32⟩ : BufTy).Contents (Elt Ideal))
    (x3 x4 x5 x6 : (⟨Cert.ReferenceIdeal.S128, .f32⟩ : BufTy).Contents (Elt Ideal)) (x7 : (⟨Cert.ReferenceIdeal.S128x128, .f32⟩ : BufTy).Contents (Elt Ideal)) (x8 x9 x10 x11 x12 : (⟨Cert.ReferenceIdeal.S128, .f32⟩ : BufTy).Contents (Elt Ideal)) (x13 : (⟨Cert.ReferenceIdeal.S128x256, .f32⟩ : BufTy).Contents (Elt Ideal)) (x14 : (⟨Cert.ReferenceIdeal.S256, .f32⟩ : BufTy).Contents (Elt Ideal)) (x15 : (⟨Cert.ReferenceIdeal.S256x128, .f32⟩ : BufTy).Contents (Elt Ideal)) (x16 x17 x18 x19 x20 : (⟨Cert.ReferenceIdeal.S128, .f32⟩ : BufTy).Contents (Elt Ideal))
    (i : Cert.ReferenceIdeal.S100000x128.Idx) :
    Cert.ReferenceIdeal.Read.val_main_v77 (F := Ideal) x0 x1 x2 x3 x4 x5 x6 x7 x8 x9 x10 x11 x12 x13 x14 x15 x16 x17 x18 x19 x20 i
      = Cert.GineLayer.denseRow (Cert.ReferenceIdeal.RefValue.rparams x3 x4 x5 x6 x7 x8 x9 x10 x11 x12 x13 x14 x15 x16 x17 x18 x19 x20)
          (fun l => x0 (ix2 (i 0) l)) (fun l => Cert.ReferenceIdeal.Read.val_main_v15 (F := Ideal) x0 x1 x2 (ix2 (i 0) l)) (i 1) :=
  (congrArg (Cert.ReferenceIdeal.Read.val_main_v77 (F := Ideal) x0 x1 x2 x3 x4 x5 x6 x7 x8 x9 x10 x11 x12 x13 x14 x15 x16 x17 x18 x19 x20) (eq_ix2 i)).trans
    (Cert.ReferenceIdeal.RefValue.ref_dense x0 x1 x2 x3 x4 x5 x6 x7 x8 x9 x10 x11 x12 x13 x14 x15 x16 x17 x18 x19 x20 (i 0) (i 1))

/-- From memories that agree on the arguments both programs run, and their results are equal entry by entry: each
    is the layer's row function of the same rows of the same arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq]
  obtain ⟨a0, a1, a2, a3, a4, a5, a6, a7, a8, a9, a10, a11, a12, a13, a14, a15, a16, a17, a18, a19, a20⟩ := hagree c
  rw [a0, a1, a2, a3, a4, a5, a6, a7, a8, a9, a10, a11, a12, a13, a14, a15, a16, a17, a18, a19, a20]
  funext i
  exact ref_result_apply _ _ _ _ _ _ _ _ _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
